-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) (main_arg2 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  main_v13
-- ==== Kernel.lean ====
abbrev S8x2048x128 : Shape := ⟨3, ![8, 2048, 128]⟩
abbrev S1x1024x128 : Shape := ⟨3, ![1, 1024, 128]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S1024x128 : Shape := ⟨2, ![1024, 128]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S2048x128, .bf16⟩
  | .local _ .vmem, ⟨9, _⟩ => ⟨S2048x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  reduces_S1024x2048_S1024 : S1024x2048.Reduces [1] S1024
  broadcasts_S1024x1_S1024x2048 : S1024x1.Broadcasts S1024x2048
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x2048x128.size a
  hwx0_0 : ∀ i : grid0.Coords, EltTy.bits .f32 = 32 ∨ (Rect.block (s := S8x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S8x2048x128.size a
  hwx0_3 : ∀ i : grid0.Coords, EltTy.bits .f32 = 32 ∨ (Rect.block (s := S8x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x128, .f32⟩
  | .hbm, ⟨12, _⟩ => ⟨S8x2048x128, .f32⟩
  | .hbm, ⟨13, _⟩ => ⟨S8x2048x128, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x128, .f32⟩
  | .hbm, ⟨22, _⟩ => ⟨S8x2048x128, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Pieces.lean ====
/-
  What one grid point's body leaves behind, as values of the blocks it loaded.

  At a point with `li = 0` the body first stores the unit key rows and the values into the two scratch buffers,
  then reads both back; at a point with `li ≠ 0` it reads what the scratch buffers held on entry. Either way the
  output block is the one store's payload of the query block and the two scratch contents.
-/
import proofs.«420751_j74062416052580_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After a point with `li = 0` the first scratch holds the unit key rows of the key block. -/
theorem keys_A (c : Dev nD) (i : grid0.Coords) (a2 : Memref sig .tc .vmem S1x1024x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1024x128 .f32) (h5 : a5.IsWhole) (a6 : Memref sig .tc .vmem S2048x128 .bf16) (h6 : a6.IsWhole) (a7 : Memref sig .tc .vmem S2048x128 .bf16) (h7 : a7.IsWhole) (hc : cond0_0 i) (x0 : Vec F S1x1024x128 .f32) (x1 x2 : Vec F S1x2048x128 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz2]
  simp only [View.readAt_eq_ld, h3.read_unread, View.ld_unit_zero (S := S1x2048x128) hz3]

/-- After a point with `li = 0` the second scratch holds the value block. -/
theorem vals_A (c : Dev nD) (i : grid0.Coords) (a2 : Memref sig .tc .vmem S1x1024x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1024x128 .f32) (h5 : a5.IsWhole) (a6 : Memref sig .tc .vmem S2048x128 .bf16) (h6 : a6.IsWhole) (a7 : Memref sig .tc .vmem S2048x128 .bf16) (h7 : a7.IsWhole) (hc : cond0_0 i) (x0 : Vec F S1x1024x128 .f32) (x1 x2 : Vec F S1x2048x128 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz2]
  simp only [View.readAt_eq_ld, h4.read_unread, View.ld_unit_zero (S := S1x2048x128) hz3]

/-- The output block of a point with `li = 0`: the attention of the query block over the unit key rows and the
    values just stored (the scratch is read back after the stores that cover it). -/
theorem out_A (c : Dev nD) (i : grid0.Coords) (a2 : Memref sig .tc .vmem S1x1024x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1024x128 .f32) (h5 : a5.IsWhole) (a6 : Memref sig .tc .vmem S2048x128 .bf16) (h6 : a6.IsWhole) (a7 : Memref sig .tc .vmem S2048x128 .bf16) (h7 : a7.IsWhole) (hc : cond0_0 i) (x0 : Vec F S1x1024x128 .f32) (x1 x2 : Vec F S1x2048x128 .f32) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz3]
  simp only [View.readAt_eq_ld, h2.read_unread, h3.read_unread, h4.read_unread,
    View.ld_unit_zero (S := S1x1024x128) hz3, View.ld_unit_zero (S := S1x2048x128) hz3,
    View.readCov_unit_zero (S := S2048x128) _ hz2]

/-- The output block of a point with `li ≠ 0`: the attention of the query block over whatever the two scratch
    buffers held on entry. -/
theorem out_B (c : Dev nD) (i : grid0.Coords) (a2 : Memref sig .tc .vmem S1x1024x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1024x128 .f32) (h5 : a5.IsWhole) (a6 : Memref sig .tc .vmem S2048x128 .bf16) (h6 : a6.IsWhole) (a7 : Memref sig .tc .vmem S2048x128 .bf16) (h7 : a7.IsWhole) (hc : ¬cond0_0 i) (x0 : Vec F S1x1024x128 .f32) (x1 x2 : Vec F S1x2048x128 .f32) (xs0 xs1 : Vec F S2048x128 .bf16) :
    out0_B_3 c i a2 h2 a3 h3 a4 h4 a5 h5 a6 h6 a7 h7 hc x0 x1 x2 xs0 xs1 = k0_pay3 x0 xs0 xs1 := by
  unfold out0_B_3
  rw [View.read_writes_eq_canon _ _ _ (cover0_B_3 c i a2 h2 a3 h3 a4 h4 a5 h5 a6 h6 a7 h7 hc x0 x1 x2 xs0 xs1)]
  unfold kernelRun0_B
  dsimp only
  sl_unfold_words
  rw [View.canon_unit_zero hz3]
  simp only [View.readAt_eq_ld, h2.read_unread, h6.read_unread, h7.read_unread,
    View.ld_unit_zero (S := S1x1024x128) hz3, View.ld_unit_zero (S := S2048x128) hz2]

end Cert.KernelIdeal.Pieces

end
-- ==== Proof.AttnAlgebra.lean ====
/-
  Cosine attention on the extended reals, one query row at a time.

  A row `x` is divided by its Euclidean norm clamped below by `ε`; the score of a query row against key row `s` is
  the inner product of the two unit rows times the temperature `σ`; the weights are `exp (score s - max score)`.
  One arrangement multiplies the weighted sum of the values by `1 / L`, `L` the sum of the weights; the other divides
  every weight by `L` first. For rows of real numbers the two agree: every score is then a real number, so their
  maximum is one too, every weight is a positive real, `L` is a positive real, and multiplying by the nonnegative
  real `1 / L` distributes over a sum of extended reals whatever the values are.
-/
import Idealize.ShloMosaic.PureOps.Ideal
import Mathlib.Data.Finset.Fold
import Mathlib.Data.EReal.Inv
import Mathlib.Data.EReal.Operations

noncomputable section

namespace Cert.Attn

open Idealize.ShloMosaic

/-! ## The constants the two programs spell -/

theorem ofBits_ninf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem ofBits_scale : Ideal.ofBits .f32 0x42800000#32 = ((64 : ℝ) : EReal) := by
  simp [Ideal.ofBits, Ideal.ieee, -EReal.coe_mul]; norm_num

/-- The clamp is a positive real number (its exact value does not matter). -/
theorem ofBits_eps_pos : 0 < Ideal.ofBits .f32 0x2B8CBCCC#32 := by
  simp [Ideal.ofBits, Ideal.ieee, -EReal.coe_mul]

/-! ## Sums of real numbers inside the extended reals -/

variable {ι κ : Type} [Fintype ι] [Fintype κ]

/-- A finite sum of real numbers, taken in the extended reals, is the real sum. -/
theorem coe_sum (s : Finset ι) (f : ι → ℝ) : (∑ i ∈ s, (f i : EReal)) = ((∑ i ∈ s, f i : ℝ) : EReal) := by
  classical
  refine Finset.induction_on s (by simp) (fun a s ha ih => ?_)
  rw [Finset.sum_insert ha, Finset.sum_insert ha, ih, EReal.coe_add]

/-- Multiplying by a nonnegative real number distributes over a finite sum of extended reals. -/
theorem sum_mul_coe (s : Finset κ) (a : κ → EReal) {c : ℝ} (hc : 0 ≤ c) :
    (∑ i ∈ s, a i) * (c : EReal) = ∑ i ∈ s, a i * (c : EReal) := by
  classical
  refine Finset.induction_on s (by simp) (fun i s hi ih => ?_)
  rw [Finset.sum_insert hi, Finset.sum_insert hi,
    EReal.right_distrib_of_nonneg_of_ne_top (EReal.coe_nonneg.2 hc) (EReal.coe_ne_top c), ih]

/-- The inverse of an extended real is always a real number (`(±∞)⁻¹ = 0`). -/
theorem inv_real (y : EReal) : ∃ r : ℝ, y⁻¹ = (r : EReal) := by
  induction y using EReal.rec with
  | bot => exact ⟨0, by rw [EReal.inv_bot, EReal.coe_zero]⟩
  | top => exact ⟨0, by rw [EReal.inv_top, EReal.coe_zero]⟩
  | coe r => exact ⟨r⁻¹, (EReal.coe_inv r).symm⟩

/-- A real number divided by anything but zero is a real number. -/
theorem div_real (a : ℝ) {y : EReal} (hy : y ≠ 0) : ∃ r : ℝ, Ideal.div (a : EReal) y = (r : EReal) := by
  obtain ⟨r, hr⟩ := inv_real y
  exact ⟨a * r, by rw [Ideal.div, if_neg hy, hr, EReal.coe_mul]⟩

/-! ## The row functions -/

/-- A row divided by its Euclidean norm, the norm clamped below by `ε`. -/
def unit (x : ι → EReal) (d : ι) : EReal :=
  Ideal.div (x d) (max (Ideal.sqrt (∑ e, x e * x e)) (Ideal.ofBits .f32 0x2B8CBCCC#32))

/-- The score of a unit query row against unit key row `kn s`: their inner product times the temperature. -/
def scoreOf (qn : ι → EReal) (kn : κ → ι → EReal) (s : κ) : EReal :=
  (∑ d, qn d * kn s d) * Ideal.ofBits .f32 0x42800000#32

/-- The score of query row `q` against key row `k s`: the cosine of the two, times the temperature. -/
def score (q : ι → EReal) (k : κ → ι → EReal) : κ → EReal :=
  scoreOf (unit q) (fun s => unit (k s))

/-- The running maximum of the scores, from `-∞`. -/
def top (sc : κ → EReal) : EReal := Finset.univ.fold max (Ideal.ofBits .f32 0xFF800000#32) sc

/-- The unnormalised softmax weight of key `s`. -/
def weight (sc : κ → EReal) (s : κ) : EReal := Ideal.exp (sc s - top sc)

/-- The sum of the values under the weights `w`, scaled by the reciprocal of the weights' sum afterwards. -/
def mixAfter (w v : κ → EReal) : EReal :=
  (∑ s, w s * v s) * Ideal.div (Ideal.ofBits .f32 0x3F800000#32) (∑ s, w s)

/-- The sum of the values under the weights each divided by the weights' sum first. -/
def mixBefore (w v : κ → EReal) : EReal :=
  ∑ s, Ideal.div (w s) (∑ s', w s') * v s

/-! ## Real rows give real scores -/

theorem clamp_ne_zero (y : EReal) : max y (Ideal.ofBits .f32 0x2B8CBCCC#32) ≠ 0 :=
  (lt_of_lt_of_le ofBits_eps_pos (le_max_right _ _)).ne'

/-- The unit row of a row of reals is a row of reals. -/
theorem unit_real (x : ι → ℝ) : ∃ u : ι → ℝ, ∀ d, unit (fun e => (x e : EReal)) d = (u d : EReal) := by
  have h : ∀ d, ∃ r : ℝ, unit (fun e => (x e : EReal)) d = (r : EReal) := fun d => div_real (x d) (clamp_ne_zero _)
  choose u hu using h
  exact ⟨u, hu⟩

/-- The scores of a real query row against real key rows are real numbers. -/
theorem score_real (q : ι → ℝ) (k : κ → ι → ℝ) :
    ∃ S : κ → ℝ, ∀ s, score (fun d => (q d : EReal)) (fun s d => (k s d : EReal)) s = (S s : EReal) := by
  obtain ⟨u, hu⟩ := unit_real q
  have hk : ∀ s, ∃ w : ι → ℝ, ∀ d, unit (fun e => (k s e : EReal)) d = (w d : EReal) := fun s => unit_real (k s)
  choose w hw using hk
  refine ⟨fun s => (∑ d, u d * w s d) * 64, fun s => ?_⟩
  unfold score scoreOf
  simp only [hu, hw, ofBits_scale, ← EReal.coe_mul, coe_sum]

/-! ## The two arrangements agree -/

/-- With a positive real sum of weights the two arrangements are one: `(∑ p v) · (1/L) = ∑ (p/L) v`. -/
theorem scale_sum (p v : κ → EReal) {L : ℝ} (hL : 0 < L) :
    (∑ s, p s * v s) * Ideal.div (Ideal.ofBits .f32 0x3F800000#32) (L : EReal) = ∑ s, Ideal.div (p s) (L : EReal) * v s := by
  simp only [Ideal.div_coe hL.ne', ofBits_one, one_mul]
  rw [sum_mul_coe _ _ (by positivity)]
  exact Finset.sum_congr rfl fun s _ => mul_right_comm _ _ _

variable [Nonempty κ]

/-- The maximum of real scores, over a nonempty set of keys, is a real number. -/
theorem top_real (S : κ → ℝ) : ∃ M : ℝ, top (fun s => (S s : EReal)) = (M : EReal) := by
  have hbot : top (fun s => (S s : EReal)) ≠ ⊥ := by
    obtain ⟨s0⟩ := ‹Nonempty κ›
    have h : (S s0 : EReal) ≤ top (fun s => (S s : EReal)) :=
      (Finset.le_fold_max _).2 (Or.inr ⟨s0, Finset.mem_univ _, le_rfl⟩)
    exact (lt_of_lt_of_le (EReal.bot_lt_coe _) h).ne'
  have htop : top (fun s => (S s : EReal)) ≠ ⊤ := by
    have h : top (fun s => (S s : EReal)) < ⊤ :=
      (Finset.fold_max_lt _).2 ⟨by rw [ofBits_ninf]; exact bot_lt_top, fun s _ => EReal.coe_lt_top _⟩
    exact h.ne
  exact ⟨(top fun s => (S s : EReal)).toReal, (EReal.coe_toReal htop hbot).symm⟩

/-- For real scores the two arrangements of the softmax-weighted sum agree, whatever the values. -/
theorem mixAfter_eq_mixBefore (S : κ → ℝ) (v : κ → EReal) :
    mixAfter (weight fun s => (S s : EReal)) v = mixBefore (weight fun s => (S s : EReal)) v := by
  obtain ⟨M, hM⟩ := top_real S
  have hw : ∀ s, weight (fun s => (S s : EReal)) s = ((Real.exp (S s - M) : ℝ) : EReal) := fun s => by
    unfold weight; rw [hM, ← EReal.coe_sub]; rfl
  have hL : (∑ s, weight (fun s => (S s : EReal)) s) = ((∑ s, Real.exp (S s - M) : ℝ) : EReal) := by
    simp only [hw, coe_sum]
  have hpos : 0 < ∑ s, Real.exp (S s - M) :=
    Finset.sum_pos (fun s _ => Real.exp_pos _) Finset.univ_nonempty
  unfold mixAfter mixBefore
  rw [hL]
  exact scale_sum _ v hpos

/-- Cosine attention of a real query row over real key rows: the two arrangements agree. -/
theorem attention_row (q : ι → ℝ) (k : κ → ι → ℝ) (v : κ → EReal) :
    mixAfter (weight (score (fun d => (q d : EReal)) (fun s d => (k s d : EReal)))) v
      = mixBefore (weight (score (fun d => (q d : EReal)) (fun s d => (k s d : EReal)))) v := by
  obtain ⟨S, hS⟩ := score_real q k
  rw [show score (fun d => (q d : EReal)) (fun s d => (k s d : EReal)) = fun s => (S s : EReal) from funext hS]
  exact mixAfter_eq_mixBefore S v

/-- Starting the running maximum from `-∞` once more changes nothing. -/
theorem max_ninf_top (sc : κ → EReal) : max (Ideal.ofBits .f32 0xFF800000#32) (top sc) = top sc := by
  rw [ofBits_ninf]; exact max_eq_right bot_le

end Cert.Attn

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.Payload.lean ====
/-
  The body's three stored values read at coordinates, over the extended reals.

  The first scratch receives the key block with every row divided by its clamped Euclidean norm; the second the value
  block unchanged (a change of float format is the identity on the extended reals). The output block's entry
  `(r, d)` is the softmax-weighted sum of column `d` of the second scratch, the weights those of query row `r`
  (made a unit row) against the rows of the first scratch, the sum scaled afterwards by the reciprocal of the weights'
  sum.
-/
import proofs.«420751_j74062416052580_3_alg».proof.Proof.Gen.KernelIdeal.Skeleton
import proofs.«420751_j74062416052580_3_alg».proof.Proof.AttnAlgebra
import proofs.«420751_j74062416052580_3_alg».proof.Proof.LibRowReduce
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx Cert.RowReduce

/-! ## Rows divided by their clamped norm -/

/-- Entry `(r, d)` of a matrix whose rows are divided by their Euclidean norm clamped below: the unit row of row
    `r`, at `d`. -/
theorem unitRows_of_eq {a b : ℕ} (X : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (d : Fin b) (x : Fin b → EReal) (hx : ∀ e, X (ix2 r e) = x e) :
    divf X (broadcastTo ⟨2, ![a, b]⟩ (maximumf (sqrt (shapeCast ⟨2, ![a, 1]⟩ (multiReduction .add [1] ⟨1, ![a]⟩ (mulf X X) acc h hφ hacc) hc))
        (broadcast ⟨2, ![a, 1]⟩ (Scalar.ofBits .f32 0x2B8CBCCC#32))) hb) (ix2 r d) = Attn.unit x d := by
  show Ideal.div (X (ix2 r d)) (broadcastTo ⟨2, ![a, b]⟩ _ hb (ix2 r d)) = _
  rw [broadcastTo_a1_ab_apply]
  show Ideal.div (X (ix2 r d)) (max (Ideal.sqrt (shapeCast ⟨2, ![a, 1]⟩ _ hc (ix2 r (0 : Fin 1)))) (Ideal.ofBits .f32 0x2B8CBCCC#32)) = _
  rw [shapeCast_a_a1_apply, rowSum_apply]
  unfold Attn.unit
  simp only [mulf_apply, hx]

/-- The first scratch's payload: the key block's rows, each a unit row. -/
theorem pay1_apply (x1 : Vec Ideal S1x2048x128 .f32) (s : Fin 2048) (d : Fin 128) :
    k0_pay1 (F := Ideal) x1 (ix2 s d) = Attn.unit (fun e : Fin 128 => x1 (ix3 (0 : Fin 1) s e)) d := by
  unfold k0_pay1; dsimp only
  rw [shapeCast_self]
  exact unitRows_of_eq _ _ _ _ _ _ _ s d _ fun e => shapeCast_1ab_ab_apply x1 _ s e

/-- The second scratch's payload: the value block. -/
theorem pay2_apply (x2 : Vec Ideal S1x2048x128 .f32) (s : Fin 2048) (d : Fin 128) :
    k0_pay2 (F := Ideal) x2 (ix2 s d) = x2 (ix3 (0 : Fin 1) s d) := by
  unfold k0_pay2
  rw [shapeCast_self]
  exact shapeCast_1ab_ab_apply x2 _ s d

/-! ## The two matrix products -/

theorem qk_lhs_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem qk_lhs_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem qk_rhs_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem qk_rhs_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- Queries against keys, both contracted along their feature axis: entry `(p, s)` is the inner product of query row
    `p` and key row `s`. -/
theorem qk_apply (l : FVec Ideal S1024x128 .bf16) (r : FVec Ideal S2048x128 .bf16) (p : Fin 1024) (s : Fin 2048) :
    FloatOps.matmul dot_S1024x128_S2048x128_S1024x2048_1_1_0_0_n_n none l r (constant S1024x2048 .f32 0x00000000#32) (ix2 p s)
      = ∑ e : Fin 128, l (ix2 p e) * r (ix2 s e) := by
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p s) ((contrEquiv1 dot_S1024x128_S2048x128_S1024x2048_1_1_0_0_n_n 128 rfl rfl).symm k) = ix2 p k := funext fun a => Fin.ext (by
    match a with
    | ⟨0, _⟩ => exact qk_lhs_0 _ _
    | ⟨1, _⟩ => exact (qk_lhs_1 _ _).trans hk)
  have er : dot_S1024x128_S2048x128_S1024x2048_1_1_0_0_n_n.rhsIdx (ix2 p s) ((contrEquiv1 dot_S1024x128_S2048x128_S1024x2048_1_1_0_0_n_n 128 rfl rfl).symm k) = ix2 s k := funext fun a => Fin.ext (by
    match a with
    | ⟨0, _⟩ => exact qk_rhs_0 _ _
    | ⟨1, _⟩ => exact (qk_rhs_1 _ _).trans hk)
  rw [el, er]

theorem pv_lhs_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem pv_lhs_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem pv_rhs_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem pv_rhs_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Weights against values: entry `(p, d)` is the sum over the keys of weight `(p, s)` times value `(s, d)`. -/
theorem pv_apply (l : FVec Ideal S1024x2048 .bf16) (r : FVec Ideal S2048x128 .bf16) (p : Fin 1024) (d : Fin 128) :
    FloatOps.matmul dot_S1024x2048_S2048x128_S1024x128_1_0_0_1_n_n none l r (constant S1024x128 .f32 0x00000000#32) (ix2 p d)
      = ∑ s : Fin 2048, l (ix2 p s) * r (ix2 s d) := by
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p d) ((contrEquiv1 dot_S1024x2048_S2048x128_S1024x128_1_0_0_1_n_n 2048 rfl rfl).symm k) = ix2 p k := funext fun a => Fin.ext (by
    match a with
    | ⟨0, _⟩ => exact pv_lhs_0 _ _
    | ⟨1, _⟩ => exact (pv_lhs_1 _ _).trans hk)
  have er : dot_S1024x2048_S2048x128_S1024x128_1_0_0_1_n_n.rhsIdx (ix2 p d) ((contrEquiv1 dot_S1024x2048_S2048x128_S1024x128_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! ## Scores, weights and the scaled sum -/

/-- The scaled scores: entry `(r, s)` is the inner product of row `r` of the unit queries and row `s` of the
    first scratch, times the temperature. -/
theorem scores_of_eq (QN : FVec Ideal S1024x128 .f32) (ks : FVec Ideal S2048x128 .bf16) (hb : FTy.bits .bf16 < FTy.bits .f32)
    (r : Fin 1024) (s : Fin 2048) (qn kn : Fin 128 → EReal) (hq : ∀ e, QN (ix2 r e) = qn e) (hk : ∀ e, ks (ix2 s e) = kn e) :
    mulf (matmul dot_S1024x128_S2048x128_S1024x2048_1_1_0_0_n_n none (truncf .bf16 QN hb) ks (constant S1024x2048 .f32 0x00000000#32))
        (broadcast S1024x2048 (Scalar.ofBits .f32 0x42800000#32)) (ix2 r s)
      = (∑ e, qn e * kn e) * Ideal.ofBits .f32 0x42800000#32 := by
  show FloatOps.matmul dot_S1024x128_S2048x128_S1024x2048_1_1_0_0_n_n none (truncf .bf16 QN hb) ks (constant S1024x2048 .f32 0x00000000#32) (ix2 r s) * Ideal.ofBits .f32 0x42800000#32 = _
  rw [qk_apply]
  simp only [truncf_apply, hq, hk]

/-- The unnormalised softmax weights of a score matrix: entry `(r, s)` is the weight of key `s` among row `r`. -/
theorem softmax_of_eq (SC : FVec Ideal S1024x2048 .f32) (h : S1024x2048.Reduces [1] S1024) (hφ : FKind.Formats .f32)
    (hacc : (0xFF800000#32 : BitVec 32) = FKind.maximumf.neutral .f32 hφ) (hc : S1024.ShapeCasts S1024x1) (hb : S1024x1.Broadcasts S1024x2048)
    (r : Fin 1024) (s : Fin 2048) (sc : Fin 2048 → EReal) (hsc : ∀ s', SC (ix2 r s') = sc s') :
    exp (subf SC (broadcastTo S1024x2048 (shapeCast S1024x1 (multiReduction .maximumf [1] S1024 SC 0xFF800000#32 h hφ hacc) hc) hb)) (ix2 r s)
      = Attn.weight sc s := by
  show Ideal.exp (SC (ix2 r s) - broadcastTo S1024x2048 _ hb (ix2 r s)) = _
  rw [broadcastTo_a1_ab_apply, shapeCast_a_a1_apply, rowMax_apply]
  unfold Attn.weight Attn.top
  simp only [hsc]

/-- The output block from the weights `W` and the second scratch: entry `(0, r, d)` is the sum of column `d` under
    the weights of row `r`, scaled afterwards by the reciprocal of their sum. -/
theorem tail_of_eq (W : FVec Ideal S1024x2048 .f32) (vs : FVec Ideal S2048x128 .bf16) (hbits : FTy.bits .bf16 < FTy.bits .f32)
    (h : S1024x2048.Reduces [1] S1024) (hφ : FKind.Formats .f32) (hacc : (0x00000000#32 : BitVec 32) = FKind.add.neutral .f32 hφ)
    (hc : S1024.ShapeCasts S1024x1) (hb : S1024x1.Broadcasts S1024x128) (hcast : S1024x128.ShapeCasts S1x1024x128)
    (r : Fin 1024) (d : Fin 128) (w v : Fin 2048 → EReal) (hw : ∀ s, W (ix2 r s) = w s) (hv : ∀ s, vs (ix2 s d) = v s) :
    shapeCast S1x1024x128 (mulf (matmul dot_S1024x2048_S2048x128_S1024x128_1_0_0_1_n_n none (truncf .bf16 W hbits) vs (constant S1024x128 .f32 0x00000000#32))
        (broadcastTo S1024x128 (divf (broadcast S1024x1 (Scalar.ofBits .f32 0x3F800000#32))
          (shapeCast S1024x1 (multiReduction .add [1] S1024 W 0x00000000#32 h hφ hacc) hc)) hb)) hcast (ix3 (0 : Fin 1) r d)
      = Attn.mixAfter w v := by
  rw [shapeCast_ab_1ab_apply]
  show FloatOps.matmul dot_S1024x2048_S2048x128_S1024x128_1_0_0_1_n_n none (truncf .bf16 W hbits) vs (constant S1024x128 .f32 0x00000000#32) (ix2 r d)
      * broadcastTo S1024x128 _ hb (ix2 r d) = _
  rw [pv_apply, broadcastTo_a1_ab_apply]
  show _ * Ideal.div (Ideal.ofBits .f32 0x3F800000#32) (shapeCast S1024x1 _ hc (ix2 r (0 : Fin 1))) = _
  rw [shapeCast_a_a1_apply, rowSum_apply]
  unfold Attn.mixAfter
  simp only [truncf_apply, hw, hv]

/-- The output block's payload: entry `(0, r, d)` is the attention of query row `r` (made a unit row) over the rows
    `ks` of the first scratch, applied to column `d` of the second scratch `vs`. -/
theorem pay3_apply (x0 : Vec Ideal S1x1024x128 .f32) (ks vs : Vec Ideal S2048x128 .bf16) (r : Fin 1024) (d : Fin 128) :
    k0_pay3 (F := Ideal) x0 ks vs (ix3 (0 : Fin 1) r d)
      = Attn.mixAfter (Attn.weight (Attn.scoreOf (Attn.unit fun e : Fin 128 => x0 (ix3 (0 : Fin 1) r e)) (fun (s : Fin 2048) (e : Fin 128) => ks (ix2 s e))))
          (fun s : Fin 2048 => vs (ix2 s d)) := by
  unfold k0_pay3; dsimp only
  exact tail_of_eq _ vs _ _ _ _ _ _ _ r d _ _
    (fun s => softmax_of_eq _ _ _ _ _ _ r s _ fun s' =>
      scores_of_eq _ ks _ r s' _ _
        (fun e => unitRows_of_eq _ _ _ _ _ _ _ r e _ fun e' => shapeCast_1ab_ab_apply x0 _ r e')
        (fun e => rfl))
    (fun s => rfl)

end Cert.KernelIdeal.Payload

end
-- ==== Proof.AttnSpec.lean ====
/-
  Cosine attention of whole arrays: the result at `(b, l, d)` is the attention of query row `(b, l)` over the key
  rows of batch `b`, applied to column `d` of the values of batch `b` (the arrangement that scales after the sum).
-/
import proofs.«420751_j74062416052580_3_alg».proof.Proof.AttnAlgebra
import Idealize.ShloMosaic.Lib.ValueIdx

noncomputable section

namespace Cert.Attn

open Idealize.ShloMosaic Idealize.ShloMosaic.ValueIdx

/-- The arrays' shape: 8 batches of 2048 rows of 128 features. -/
abbrev Arr : Type := (⟨3, ![8, 2048, 128]⟩ : Shape).Idx → EReal

/-- Entry `(b, l, d)` of the attention of `q` over `k` applied to `v`, scaled after the sum. -/
def attnAt (q k v : Arr) (b : Fin 8) (l : Fin 2048) (d : Fin 128) : EReal :=
  mixAfter (weight (score (fun e : Fin 128 => q (ix3 b l e)) (fun (s : Fin 2048) (e : Fin 128) => k (ix3 b s e))))
    (fun s : Fin 2048 => v (ix3 b s d))

/-- The same with every weight divided by the weights' sum before the sum over the keys. -/
def attnAt' (q k v : Arr) (b : Fin 8) (l : Fin 2048) (d : Fin 128) : EReal :=
  mixBefore (weight (score (fun e : Fin 128 => q (ix3 b l e)) (fun (s : Fin 2048) (e : Fin 128) => k (ix3 b s e))))
    (fun s : Fin 2048 => v (ix3 b s d))

/-- The whole result array. -/
def G (q k v : Arr) : Arr := fun i =>
  attnAt q k v ⟨(i 0).val, (i 0).isLt⟩ ⟨(i 1).val, (i 1).isLt⟩ ⟨(i 2).val, (i 2).isLt⟩

theorem G_ix3 (q k v : Arr) (b : Fin 8) (l : Fin 2048) (d : Fin 128) : G q k v (ix3 b l d) = attnAt q k v b l d := rfl

/-- On arrays of real numbers (the values may be anything) the two arrangements agree. -/
theorem attnAt_eq (q k v : Arr) (hq : ∀ i, ∃ r : ℝ, q i = (r : EReal)) (hk : ∀ i, ∃ r : ℝ, k i = (r : EReal))
    (b : Fin 8) (l : Fin 2048) (d : Fin 128) : attnAt q k v b l d = attnAt' q k v b l d := by
  choose q' hq' using hq
  choose k' hk' using hk
  unfold attnAt attnAt'
  simp only [hq', hk']
  exact attention_row (fun e : Fin 128 => q' (ix3 b l e)) (fun (s : Fin 2048) (e : Fin 128) => k' (ix3 b s e)) _

end Cert.Attn

end
-- ==== Proof.KernelValue.lean ====
/-
  What the kernel's run leaves in the result array, over the extended reals.

  The grid has 16 points; point `t` works on batch `t / 2` and on the query rows `1024 · (t % 2) …` of it. An even
  point stores the unit key rows and the values of its batch into the two scratch buffers and uses them at once; the
  odd point after it works on the same batch and finds them there. So every point writes back the attention of its
  query rows over its batch's keys and values, and the 16 blocks tile the result array.
-/
import proofs.«420751_j74062416052580_3_alg».proof.Proof.Gen.KernelIdeal.Value
import proofs.«420751_j74062416052580_3_alg».proof.Proof.Pieces
import proofs.«420751_j74062416052580_3_alg».proof.Proof.Payload
import proofs.«420751_j74062416052580_3_alg».proof.Proof.AttnSpec
import Idealize.ShloMosaic.Lib.Pipeline.Value

noncomputable section

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks a point is handed, and the arrays they are cut from -/

/-- The query block, the key block and the value block of point `t`. -/
abbrev qblk (c : Dev nD) (t : Fin cfg0.N) : Vec Ideal S1x1024x128 .f32 := iblk m c 0 t
abbrev kblk (c : Dev nD) (t : Fin cfg0.N) : Vec Ideal S1x2048x128 .f32 := iblk m c 1 t
abbrev vblk (c : Dev nD) (t : Fin cfg0.N) : Vec Ideal S1x2048x128 .f32 := iblk m c 2 t

/-- The three argument arrays. -/
abbrev qarr (c : Dev nD) : Attn.Arr := m ((c : Thread nD τ).loc main_arg0)
abbrev karr (c : Dev nD) : Attn.Arr := m ((c : Thread nD τ).loc main_arg1)
abbrev varr (c : Dev nD) : Attn.Arr := m ((c : Thread nD τ).loc main_arg2)

/-- The result array as it should end: the attention of the three argument arrays. -/
abbrev result (c : Dev nD) : Buf (Elt Ideal) ((c : Thread nD τ).loc main_v0) := Attn.G (qarr m c) (karr m c) (varr m c)

theorem hN : cfg0.N = 16 := N_0

/-- Where the four windows' blocks sit at point `t`: batch `t / 2`; the query and result windows at row block
    `t % 2`, the key and value windows at the batch's one block. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- Row `r` of the query block of point `t` is row `1024 · (t % 2) + r` of batch `b = t / 2` of the queries. -/
theorem qblk_apply (c : Dev nD) (t : Fin cfg0.N) (b : Fin 8) (l : Fin 2048) (r : Fin 1024) (e : Fin 128)
    (hb : t.val / 2 = b.val) (hl : (t.val % 2) * 1024 + r.val = l.val) :
    qblk m c t (ix3 (0 : Fin 1) r e) = qarr m c (ix3 b l e) := by
  obtain ⟨e0, e1, e2, -⟩ := idx_facts t
  show V m c main_arg0 (((cfg0.win 0).blk t).view.emb (ix3 (0 : Fin 1) r e)) = V m c main_arg0 (ix3 b l e)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = l.val; omega
  | ⟨2, _⟩ => show win0_0.index t (2 : Fin 3) * 128 + 1 * e.val = e.val; omega

/-- Row `s` of the key block of point `t` is row `s` of batch `b = t / 2` of the keys. -/
theorem kblk_apply (c : Dev nD) (t : Fin cfg0.N) (b : Fin 8) (s : Fin 2048) (e : Fin 128) (hb : t.val / 2 = b.val) :
    kblk m c t (ix3 (0 : Fin 1) s e) = karr m c (ix3 b s e) := by
  obtain ⟨-, -, -, e0, e1, e2, -⟩ := idx_facts t
  show V m c main_arg1 (((cfg0.win 1).blk t).view.emb (ix3 (0 : Fin 1) s e)) = V m c main_arg1 (ix3 b s e)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * s.val = s.val; omega
  | ⟨2, _⟩ => show win0_1.index t (2 : Fin 3) * 128 + 1 * e.val = e.val; omega

/-- Row `s` of the value block of point `t` is row `s` of batch `b = t / 2` of the values. -/
theorem vblk_apply (c : Dev nD) (t : Fin cfg0.N) (b : Fin 8) (s : Fin 2048) (e : Fin 128) (hb : t.val / 2 = b.val) :
    vblk m c t (ix3 (0 : Fin 1) s e) = varr m c (ix3 b s e) := by
  obtain ⟨-, -, -, -, -, -, e0, e1, e2, -⟩ := idx_facts t
  show V m c main_arg2 (((cfg0.win 2).blk t).view.emb (ix3 (0 : Fin 1) s e)) = V m c main_arg2 (ix3 b s e)
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 2048 + 1 * s.val = s.val; omega
  | ⟨2, _⟩ => show win0_2.index t (2 : Fin 3) * 128 + 1 * e.val = e.val; omega

/-! ## What a point leaves: in the output's staging buffer and in the two scratch buffers -/

/-- An even point leaves the unit key rows of its key block in the first scratch, -/
theorem keys_even (c : Dev nD) (t : Fin cfg0.N) (h0 : t.val % 2 = 0) :
    (outsAt0 m c t.val t.isLt).2.1 = k0_pay1 (kblk m c t) := by
  rw [outsAt0_A m c t h0]; dsimp only
  exact Pieces.keys_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)

/-- its value block in the second, -/
theorem vals_even (c : Dev nD) (t : Fin cfg0.N) (h0 : t.val % 2 = 0) :
    (outsAt0 m c t.val t.isLt).2.2 = k0_pay2 (vblk m c t) := by
  rw [outsAt0_A m c t h0]; dsimp only
  exact Pieces.vals_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)

/-- and in the output's buffer the attention of its query block over those two. -/
theorem out_even (c : Dev nD) (t : Fin cfg0.N) (h0 : t.val % 2 = 0) :
    (outsAt0 m c t.val t.isLt).1 = k0_pay3 (qblk m c t) (k0_pay1 (kblk m c t)) (k0_pay2 (vblk m c t)) := by
  rw [outsAt0_A m c t h0]; dsimp only
  exact Pieces.out_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)

/-- An odd point leaves the attention of its query block over what the point before it left in the two scratch
    buffers: the unit key rows and the values of that point's blocks. -/
theorem out_odd (c : Dev nD) (t : Fin cfg0.N) (h0 : ¬t.val % 2 = 0) (t' : Fin cfg0.N) (ht' : t'.val = t.val - 1) :
    (outsAt0 m c t.val t.isLt).1 = k0_pay3 (qblk m c t) (k0_pay1 (kblk m c t')) (k0_pay2 (vblk m c t')) := by
  have h0' : t'.val % 2 = 0 := by omega
  have e1 : (outsAt0 m c (t.val - 1) (Nat.lt_of_le_of_lt (Nat.sub_le _ _) t.isLt)).2.1 = k0_pay1 (kblk m c t') := by
    obtain ⟨n, hn⟩ := t'; dsimp only at ht'; subst ht'; exact keys_even m c _ h0'
  have e2 : (outsAt0 m c (t.val - 1) (Nat.lt_of_le_of_lt (Nat.sub_le _ _) t.isLt)).2.2 = k0_pay2 (vblk m c t') := by
    obtain ⟨n, hn⟩ := t'; dsimp only at ht'; subst ht'; exact vals_even m c _ h0'
  rw [outsAt0_B m c t h0]; dsimp only
  rw [e1, e2]
  exact Pieces.out_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t) _ _

/-- Either way: entry `(r, d)` of what point `t` leaves in the output's buffer is the attention at row
    `1024 · (t % 2) + r` of batch `t / 2`. -/
theorem out_entry (c : Dev nD) (t : Fin cfg0.N) (b : Fin 8) (l : Fin 2048) (r : Fin 1024) (d : Fin 128)
    (hb : t.val / 2 = b.val) (hl : (t.val % 2) * 1024 + r.val = l.val) :
    (outsAt0 m c t.val t.isLt).1 (ix3 (0 : Fin 1) r d) = Attn.attnAt (qarr m c) (karr m c) (varr m c) b l d := by
  have hlt : t.val < 16 := lt_of_lt_of_eq t.isLt (hN)
  by_cases h0 : t.val % 2 = 0
  · rw [out_even m c t h0, Payload.pay3_apply]
    simp only [Payload.pay1_apply, Payload.pay2_apply, qblk_apply m c t b l _ _ hb hl, kblk_apply m c t b _ _ hb, vblk_apply m c t b _ _ hb]
    rfl
  · have hb' : (t.val - 1) / 2 = b.val := by omega
    rw [out_odd m c t h0 ⟨t.val - 1, by omega⟩ rfl, Payload.pay3_apply]
    simp only [Payload.pay1_apply, Payload.pay2_apply, qblk_apply m c t b l _ _ hb hl,
      kblk_apply m c ⟨t.val - 1, by omega⟩ b _ _ hb', vblk_apply m c ⟨t.val - 1, by omega⟩ b _ _ hb']
    rfl

/-! ## The blocks tile the result array -/

/-- What point `t` writes back is block `t` of the attention of the argument arrays. -/
theorem flushed_eq (c : Dev nD) (t : Fin cfg0.N) :
    (dats m 0 c).flushed 3 t = ((cfg0.win 3).blk t).view.read (Elt Ideal) (result m c) := by
  have hlt : t.val < 16 := lt_of_lt_of_eq t.isLt (hN)
  obtain ⟨-, -, -, -, -, -, -, -, -, e0, e1, e2⟩ := idx_facts t
  rw [Value.flushed3]
  funext y
  show (outsAt0 m c t.val t.isLt).1 y = result m c (((cfg0.win 3).blk t).view.emb y)
  obtain ⟨u, r, d, rfl⟩ : ∃ (u : Fin 1) (r : Fin 1024) (d : Fin 128), y = ix3 u r d := ⟨y 0, y 1, y 2, eq_ix3 y⟩
  obtain rfl : u = 0 := Subsingleton.elim _ _
  have he : ((cfg0.win 3).blk t).view.emb (ix3 (0 : Fin 1) r d)
      = ix3 (⟨t.val / 2, by omega⟩ : Fin 8) (⟨(t.val % 2) * 1024 + r.val, by omega⟩ : Fin 2048) d := funext fun a => Fin.ext (by
    match a with
    | ⟨0, _⟩ => show win0_3.index t (0 : Fin 3) * 1 + 1 * 0 = t.val / 2; omega
    | ⟨1, _⟩ => show win0_3.index t (1 : Fin 3) * 1024 + 1 * r.val = (t.val % 2) * 1024 + r.val; omega
    | ⟨2, _⟩ => show win0_3.index t (2 : Fin 3) * 128 + 1 * d.val = d.val; omega)
  rw [he]
  exact out_entry m c t _ _ r d rfl rfl

/-- An index of the result array is in point `t`'s block iff each coordinate is in the block's range on its axis. -/
theorem mem_blk (t : Fin cfg0.N) (i : S8x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v0).slice (win0_3.rect t)).set ↔ _
  rw [View.set_slice_whole, Rect.mem_set_unit]
  exact Iff.rfl

/-- Every index of the result array is in the block of the point of its batch and row block. -/
theorem cover (i : S8x2048x128.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  have hN' : cfg0.N = 16 := hN
  refine ⟨⟨2 * (i 0).val + (i 1).val / 1024, by omega⟩, flush0_3 _, ?_⟩
  obtain ⟨-, -, -, -, -, -, -, -, -, e0, e1, e2⟩ := idx_facts ⟨2 * (i 0).val + (i 1).val / 1024, by omega⟩
  dsimp only at e0 e1 e2
  rw [mem_blk]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 128 ≤ (i 2).val ∧ (i 2).val < win0_3.index _ (2 : Fin 3) * 128 + 128; omega

/-- So after the run the result array is the attention of the argument arrays. -/
theorem final (c : Dev nD) : (dats m 0 c).arrAt 3 cfg0.N = result m c :=
  (dats m 0 c).arrAt_eq_of_cover 3 (result m c) (fun t _ => flushed_eq m c t) cover

/-- The kernel's run: every weakly fair execution ends with the result array at the attention of the argument arrays,
    the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AttnValue

end
-- ==== Proof.RefValue.lean ====
/-
  The reference's result read at coordinates, over the extended reals.

  The reference makes the queries and the keys unit rows, takes their inner products times the temperature, subtracts
  each row's maximum, exponentiates, divides every weight by its row's sum, and only then sums the values under the
  weights: entry `(b, l, d)` is the attention at that entry in the arrangement that divides first.
-/
import proofs.«420751_j74062416052580_3_alg».proof.Proof.Gen.ReferenceIdeal.Read
import proofs.«420751_j74062416052580_3_alg».proof.Proof.AttnSpec
import Idealize.ShloMosaic.Lib.ValueIdx
import Idealize.ShloMosaic.PureOps.Ideal.Laws

noncomputable section

namespace Cert.ReferenceIdeal.AttnRef

open Cert.ReferenceIdeal Cert.ReferenceIdeal.Gen Cert.ReferenceIdeal.Read Idealize.ShloMosaic Idealize.ShloMosaic.TcCoe Idealize.ShloMosaic.ValueIdx

/-! ## The composed index maps, at coordinates -/

theorem i_v3 (b : Fin 8) (l : Fin 2048) (e : Fin 128) : idx_main_v3 (ix3 b l e) = ix3 b l (0 : Fin 1) := funext fun a => Fin.ext (by match a with | ⟨0, _⟩ => rfl | ⟨1, _⟩ => rfl | ⟨2, _⟩ => rfl)
theorem i_v8 (b : Fin 8) (l : Fin 2048) (e : Fin 128) : idx_main_v8 (ix3 b l e) = ix3 b l (0 : Fin 1) := funext fun a => Fin.ext (by match a with | ⟨0, _⟩ => rfl | ⟨1, _⟩ => rfl | ⟨2, _⟩ => rfl)
theorem i_v17 (b : Fin 8) (l : Fin 2048) (s : Fin 2048) : idx_main_v17 (ix3 b l s) = ix3 b l (0 : Fin 1) := funext fun a => Fin.ext (by match a with | ⟨0, _⟩ => rfl | ⟨1, _⟩ => rfl | ⟨2, _⟩ => rfl)
theorem i_v22 (b : Fin 8) (l : Fin 2048) (s : Fin 2048) : idx_main_v22 (ix3 b l s) = ix3 b l (0 : Fin 1) := funext fun a => Fin.ext (by match a with | ⟨0, _⟩ => rfl | ⟨1, _⟩ => rfl | ⟨2, _⟩ => rfl)
theorem i_call0_v2 (b : Fin 8) (l : Fin 2048) (u : Fin 1) : idx_main_call0_v2 (ix3 b l u) = ix2 b l := funext fun a => Fin.ext (by match a with | ⟨0, _⟩ => rfl | ⟨1, _⟩ => rfl)
theorem i_call1_v2 (b : Fin 8) (l : Fin 2048) (u : Fin 1) : idx_main_call1_v2 (ix3 b l u) = ix2 b l := funext fun a => Fin.ext (by match a with | ⟨0, _⟩ => rfl | ⟨1, _⟩ => rfl)
theorem i_v16 (b : Fin 8) (l : Fin 2048) (u : Fin 1) : idx_main_v16 (ix3 b l u) = ix2 b l := funext fun a => Fin.ext (by match a with | ⟨0, _⟩ => rfl | ⟨1, _⟩ => rfl)
theorem i_v21 (b : Fin 8) (l : Fin 2048) (u : Fin 1) : idx_main_v21 (ix3 b l u) = ix2 b l := funext fun a => Fin.ext (by match a with | ⟨0, _⟩ => rfl | ⟨1, _⟩ => rfl)
theorem i_call0_v1 (b : Fin 8) (l : Fin 2048) (k : Fin 128) : idx_main_call0_v1 (ix2 b l) k = ix3 b l k := funext fun a => Fin.ext (by match a with | ⟨0, _⟩ => rfl | ⟨1, _⟩ => rfl | ⟨2, _⟩ => rfl)
theorem i_call1_v1 (b : Fin 8) (l : Fin 2048) (k : Fin 128) : idx_main_call1_v1 (ix2 b l) k = ix3 b l k := funext fun a => Fin.ext (by match a with | ⟨0, _⟩ => rfl | ⟨1, _⟩ => rfl | ⟨2, _⟩ => rfl)
theorem i_v20 (b : Fin 8) (l : Fin 2048) (k : Fin 2048) : idx_main_v20 (ix2 b l) k = ix3 b l k := funext fun a => Fin.ext (by match a with | ⟨0, _⟩ => rfl | ⟨1, _⟩ => rfl | ⟨2, _⟩ => rfl)
theorem i_l10 (b : Fin 8) (l s : Fin 2048) (k : Fin 128) : lidx_main_v10 (ix3 b l s) k = ix3 b l k := funext fun a => Fin.ext (by match a with | ⟨0, _⟩ => rfl | ⟨1, _⟩ => rfl | ⟨2, _⟩ => rfl)
theorem i_r10 (b : Fin 8) (l s : Fin 2048) (k : Fin 128) : ridx_main_v10 (ix3 b l s) k = ix3 b s k := funext fun a => Fin.ext (by match a with | ⟨0, _⟩ => rfl | ⟨1, _⟩ => rfl | ⟨2, _⟩ => rfl)
theorem i_l24 (b : Fin 8) (l : Fin 2048) (d : Fin 128) (k : Fin 2048) : lidx_main_v24 (ix3 b l d) k = ix3 b l k := funext fun a => Fin.ext (by match a with | ⟨0, _⟩ => rfl | ⟨1, _⟩ => rfl | ⟨2, _⟩ => rfl)
theorem i_r24 (b : Fin 8) (l : Fin 2048) (d : Fin 128) (k : Fin 2048) : ridx_main_v24 (ix3 b l d) k = ix3 b k d := funext fun a => Fin.ext (by match a with | ⟨0, _⟩ => rfl | ⟨1, _⟩ => rfl | ⟨2, _⟩ => rfl)

/-! ## The stages -/

/-- The normalised queries: entry `(b, l, e)` is the unit row of query row `(b, l)`, at `e`. -/
theorem unit_q (x0 : Attn.Arr) (b : Fin 8) (l : Fin 2048) (e : Fin 128) :
    val_main_v4 (F := Ideal) x0 (ix3 b l e) = Attn.unit (fun e' : Fin 128 => x0 (ix3 b l e')) e := by
  rw [val_main_v4_apply, val_main_v3_apply, i_v3, val_main_v2_apply, val_main_v0_apply, val_main_call0_v2_apply, i_call0_v2,
    val_main_call0_v1_apply, val_main_v1_apply, val_main_cst_apply, val_main_call0_cst_apply]
  simp only [i_call0_v1, val_main_call0_v0_apply, Ideal.hostDivf_def, Ideal.maximumf_def, Ideal.hostUnary_sqrt_def,
    Ideal.ofBits_def, Ideal.mulf_def, Ideal.ofBits_zero_f32, zero_add]
  rfl

/-- The normalised keys likewise. -/
theorem unit_k (x1 : Attn.Arr) (b : Fin 8) (s : Fin 2048) (e : Fin 128) :
    val_main_v9 (F := Ideal) x1 (ix3 b s e) = Attn.unit (fun e' : Fin 128 => x1 (ix3 b s e')) e := by
  rw [val_main_v9_apply, val_main_v8_apply, i_v8, val_main_v7_apply, val_main_v5_apply, val_main_call1_v2_apply, i_call1_v2,
    val_main_call1_v1_apply, val_main_v6_apply, val_main_cst_0_apply, val_main_call1_cst_apply]
  simp only [i_call1_v1, val_main_call1_v0_apply, Ideal.hostDivf_def, Ideal.maximumf_def, Ideal.hostUnary_sqrt_def,
    Ideal.ofBits_def, Ideal.mulf_def, Ideal.ofBits_zero_f32, zero_add]
  rfl

/-- The scaled scores: entry `(b, l, s)` is the score of query row `(b, l)` against key row `(b, s)`. -/
theorem score_ref (x0 x1 : Attn.Arr) (b : Fin 8) (l s : Fin 2048) :
    val_main_v12 (F := Ideal) x0 x1 (ix3 b l s)
      = Attn.score (fun e : Fin 128 => x0 (ix3 b l e)) (fun (s' : Fin 2048) (e : Fin 128) => x1 (ix3 b s' e)) s := by
  rw [val_main_v12_apply, val_main_v10_apply, val_main_v11_apply, val_main_cst_1_apply]
  simp only [i_l10, i_r10, unit_q, unit_k, Ideal.mulf_def, Ideal.ofBits_def]
  rfl

/-- The row maximum: a fold of `max` over the row from `-∞`, then once more against `-∞`. -/
theorem top_ref (x0 x1 : Attn.Arr) (b : Fin 8) (l : Fin 2048) :
    val_main_v15 (F := Ideal) x0 x1 (ix2 b l)
      = Attn.top (Attn.score (fun e : Fin 128 => x0 (ix3 b l e)) (fun (s' : Fin 2048) (e : Fin 128) => x1 (ix3 b s' e))) := by
  have h13 : val_main_v13 (F := Ideal) x0 x1 (ix2 b l)
      = Attn.top (Attn.score (fun e : Fin 128 => x0 (ix3 b l e)) (fun (s' : Fin 2048) (e : Fin 128) => x1 (ix3 b s' e))) := by
    unfold val_main_v13
    rw [Host.reduce_eq_fold_single FloatOps.maximumf _ _ _ (by decide) _]
    unfold Attn.top
    refine congrArg (fun f => Finset.fold max (Ideal.ofBits .f32 0xFF800000#32) f (Finset.univ : Finset (Fin 2048)))
      (funext fun k => ?_)
    refine Eq.trans (congrArg (val_main_v12 (F := Ideal) x0 x1) ?_) (score_ref x0 x1 b l k)
    funext c; apply Fin.ext
    fin_cases c <;> rfl
  rw [val_main_v15_apply, val_main_v14_apply, val_main_cst_3_apply, h13]
  exact Attn.max_ninf_top _

/-- The unnormalised weights. -/
theorem weight_ref (x0 x1 : Attn.Arr) (b : Fin 8) (l s : Fin 2048) :
    val_main_v19 (F := Ideal) x0 x1 (ix3 b l s)
      = Attn.weight (Attn.score (fun e : Fin 128 => x0 (ix3 b l e)) (fun (s' : Fin 2048) (e : Fin 128) => x1 (ix3 b s' e))) s := by
  rw [val_main_v19_apply, val_main_v18_apply, val_main_v17_apply, i_v17, val_main_v16_apply, i_v16, top_ref, score_ref]
  rfl

/-- The reference's result: entry `(b, l, d)` is the attention there, every weight divided by the row's sum first. -/
theorem out_ref (x0 x1 x2 : Attn.Arr) (b : Fin 8) (l : Fin 2048) (d : Fin 128) :
    val_main_v24 (F := Ideal) x0 x1 x2 (ix3 b l d) = Attn.attnAt' x0 x1 x2 b l d := by
  rw [val_main_v24_apply]
  unfold Attn.attnAt' Attn.mixBefore
  refine Finset.sum_congr rfl fun k _ => ?_
  rw [i_l24, i_r24, val_main_v23_apply, val_main_v22_apply, i_v22, val_main_v21_apply, i_v21, val_main_v20_apply,
    val_main_cst_4_apply, weight_ref]
  simp only [i_v20, weight_ref, Ideal.hostDivf_def, Ideal.ofBits_def, Ideal.ofBits_zero_f32, zero_add]

end Cert.ReferenceIdeal.AttnRef

end
-- ==== Proof.Finite.lean ====
/-
  The precondition read back: an array every entry of which has absolute value below `+∞` is an array of real numbers.
-/
import proofs.«420751_j74062416052580_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs

instance : Subsingleton S_.Idx := ⟨fun a b => funext fun d => d.elim0⟩

/-- An extended real whose absolute value compares below `+∞` is a real number. -/
theorem real_of_abs_lt (x : EReal)
    (h : FloatOps.cmpf (F := Ideal) (φ := .f32) .olt (FloatOps.absf x) (Ideal.ofBits .f32 0x7F800000#32) = 1#1) : ∃ r : ℝ, x = (r : EReal) := by
  have htop : Ideal.ofBits .f32 0x7F800000#32 = ⊤ := by simp [Ideal.ofBits, Ideal.ieee]
  rw [Ideal.cmpf_def, Ideal.absf_def, htop] at h
  induction x using EReal.rec with
  | bot => simp [Ideal.cmp] at h
  | top => simp [Ideal.cmp] at h
  | coe r => exact ⟨r, rfl⟩

variable [Facts]

/-- Under the precondition the first two arrays (and the third) hold real numbers only. -/
theorem reals_of_pre (a0 a1 a2 : FVec Ideal S8x2048x128 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Pre_finite_inputs.Finite

end
-- ==== Proof.lean ====
/-
  L2-normalised cosine attention, a kernel against its plain reference, over the extended reals.

  Both programs make every query row and every key row a unit row (the row divided by its Euclidean norm, the norm
  clamped below by the same small constant), take the inner products of the unit rows times the temperature 64,
  subtract each row's maximum, exponentiate, and sum the values under the resulting weights. They differ in one
  place: the kernel sums first and multiplies the sum by `1 / L`, `L` the sum of a row's weights, while the
  reference divides every weight by `L` before it sums. The kernel also works block by block: 16 grid points, two
  per batch, the first of which stores the batch's unit key rows and its values into two scratch buffers that the
  second reads; the 16 result blocks tile the result array.

  Under the precondition the queries and the keys are real numbers. The inverse of an extended real is always a
  real number, so the unit rows are real, the scores are real, their maximum over the 2048 keys is real, every
  weight is a positive real, and `L` is a positive real. Multiplying by the nonnegative real `1 / L` distributes
  over a finite sum of extended reals whatever the summands are, so the two arrangements agree entry by entry (the
  values need not be finite for this). A change of float format is the identity on the extended reals, so the
  kernel's casts leave nothing behind, and the kernel's idealization is its own text read at the extended reals:
  `preserves` is `True`.

  The three frames are the generated ones (the reference's is its generated run with the result dropped).
-/
import proofs.«420751_j74062416052580_3_alg».proof.Defs
import proofs.«420751_j74062416052580_3_alg».proof.Proof.Gen.Kernel
import proofs.«420751_j74062416052580_3_alg».proof.Proof.Gen.Kernel.Skeleton
import proofs.«420751_j74062416052580_3_alg».proof.Proof.Gen.Kernel.Launch
import proofs.«420751_j74062416052580_3_alg».proof.Proof.Gen.Kernel.Points
import proofs.«420751_j74062416052580_3_alg».proof.Proof.Gen.Kernel.Frame
import proofs.«420751_j74062416052580_3_alg».proof.Proof.Gen.KernelIdeal
import proofs.«420751_j74062416052580_3_alg».proof.Proof.Gen.KernelIdeal.Skeleton
import proofs.«420751_j74062416052580_3_alg».proof.Proof.Gen.KernelIdeal.Launch
import proofs.«420751_j74062416052580_3_alg».proof.Proof.Gen.KernelIdeal.Points
import proofs.«420751_j74062416052580_3_alg».proof.Proof.Gen.KernelIdeal.Frame
import proofs.«420751_j74062416052580_3_alg».proof.Proof.Gen.ReferenceIdeal
import proofs.«420751_j74062416052580_3_alg».proof.Proof.Gen.KernelIdeal.Value
import proofs.«420751_j74062416052580_3_alg».proof.Proof.Gen.ReferenceIdeal.Run
import proofs.«420751_j74062416052580_3_alg».proof.Proof.Gen.ReferenceIdeal.Read
import proofs.«420751_j74062416052580_3_alg».proof.Proof.Gen.Pre_finite_inputs
import proofs.«420751_j74062416052580_3_alg».proof.Proof.KernelValue
import proofs.«420751_j74062416052580_3_alg».proof.Proof.RefValue
import proofs.«420751_j74062416052580_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the attention of the argument arrays scaled after the sum; the reference's at
    the attention with every weight divided first; on real queries and keys the two are one array. -/
theorem algebraic : Cert.algebraic_KernelIdeal_ReferenceIdeal := by
  intro m ρ m' ρ' hpre hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  obtain ⟨hq, hk, -⟩ := Cert.Pre_finite_inputs.Finite.reals_of_pre _ _ _ (hpre c)
  funext i
  obtain ⟨b, l, d, rfl⟩ : ∃ (b : Fin 8) (l : Fin 2048) (d : Fin 128), i = ix3 b l d := ⟨i 0, i 1, i 2, eq_ix3 i⟩
  rw [Cert.ReferenceIdeal.AttnRef.out_ref]
  exact (Cert.Attn.attnAt_eq _ _ _ hq hk b l d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
